-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S4x1x2048x2048 : Shape := ⟨4, ![4, 1, 2048, 2048]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) (main_arg3 : IVec S4x1x2048x2048 32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S4x1x2048x2048 : Shape := ⟨4, ![4, 1, 2048, 2048]⟩
abbrev S4x16x2048x2048 : Shape := ⟨4, ![4, 16, 2048, 2048]⟩
abbrev S1x1x512x64 : Shape := ⟨4, ![1, 1, 512, 64]⟩
abbrev S1x16x2048x64 : Shape := ⟨4, ![1, 16, 2048, 64]⟩
abbrev S1x1x512x2048 : Shape := ⟨4, ![1, 1, 512, 2048]⟩
abbrev S512x64 : Shape := ⟨2, ![512, 64]⟩
abbrev S1x1x2048x64 : Shape := ⟨4, ![1, 1, 2048, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x1x2048x2048, .i32⟩
  | .hbm, ⟨4, _⟩ => ⟨S4x16x2048x64, .f32⟩
  | .hbm, ⟨5, _⟩ => ⟨S4x16x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x16x2048x64, .f32⟩
  | .local _ .vmem, ⟨3, _⟩ => ⟨S1x16x2048x64, .f32⟩
  | .local _ .vmem, ⟨4, _⟩ => ⟨S1x1x512x2048, .i32⟩
  | .local _ .vmem, ⟨5, _⟩ => ⟨S1x1x512x2048, .i32⟩
  | .local _ .vmem, ⟨6, _⟩ => ⟨S1x1x512x64, .f32⟩
  | .local _ .vmem, ⟨7, _⟩ => ⟨S1x1x512x64, .f32⟩
  | .local _ .vmem, ⟨8, _⟩ => ⟨S1x1x512x2048, .f32⟩
  | .local _ .vmem, ⟨9, _⟩ => ⟨S1x1x512x2048, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 4, 16], ![false, false, false]⟩

def k0_off1 (i : grid0.Coords) : Fin 4 → Nat :=
  let c0_3 : Index := 0#32
  let arg2 : BitVec 32 := BitVec.ofNat 32 (i 2).val
  let v4 : Index := Scalar.indexCast arg2
  let c0_4 : Index := 0#32
  let c0_5 : Index := 0#32
  ![0, v4.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x16x2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 1 → Memref sig .tc .vmem S1x16x2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 2 → Memref sig .tc .vmem S1x1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  h_S1x1x2048x64 : 0 < S1x1x2048x64.numel
  shapeCasts_S1x1x2048x64_S2048x64 : S1x1x2048x64.ShapeCasts S2048x64
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x2048_S1x1x512x2048 : S512x2048.ShapeCasts S1x1x512x2048
  shapeCasts_S512x64_S1x1x512x64 : S512x64.ShapeCasts S1x1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  k0_off1_inb : ∀ i : grid0.Coords, ∀ a, (k0_off1 i) a + S1x1x2048x64.size a ≤ S1x16x2048x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S4x16x2048x64.size a
  hwx0_0 : ∀ i : grid0.Coords, EltTy.bits .f32 = 32 ∨ (Rect.block (s := S4x16x2048x64) S1x1x512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16x2048x64.size a ≤ S4x16x2048x64.size a
  hwx0_1 : ∀ i : grid0.Coords, EltTy.bits .f32 = 32 ∨ (Rect.block (s := S4x16x2048x64) S1x16x2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16x2048x64.size a ≤ S4x16x2048x64.size a
  hwx0_2 : ∀ i : grid0.Coords, EltTy.bits .f32 = 32 ∨ (Rect.block (s := S4x16x2048x64) S1x16x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x2048.size a ≤ S4x1x2048x2048.size a
  hwx0_3 : ∀ i : grid0.Coords, EltTy.bits .i32 = 32 ∨ (Rect.block (s := S4x1x2048x2048) S1x1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S4x16x2048x64.size a
  hwx0_4 : ∀ i : grid0.Coords, EltTy.bits .f32 = 32 ∨ (Rect.block (s := S4x16x2048x64) S1x1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x2048.size a ≤ S4x16x2048x2048.size a
  hwx0_5 : ∀ i : grid0.Coords, EltTy.bits .f32 = 32 ∨ (Rect.block (s := S4x16x2048x2048) S1x1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16x2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x16x2048x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x1x2048x2048 : Shape := ⟨4, ![4, 1, 2048, 2048]⟩
abbrev S_ : Shape := ⟨0, ![]⟩
abbrev S4x16x2048x2048 : Shape := ⟨4, ![4, 16, 2048, 2048]⟩
abbrev S4x16x2048 : Shape := ⟨3, ![4, 16, 2048]⟩
abbrev S4x16x2048x1 : Shape := ⟨4, ![4, 16, 2048, 1]⟩

abbrev nBuf : Space → Nat
  | .hbm => 33
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x1x2048x2048, .i32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4x16x2048x2048, .f32⟩
  | .hbm, ⟨9, _⟩ => ⟨S4x16x2048x2048, .f32⟩
  | .hbm, ⟨10, _⟩ => ⟨S4x16x2048x2048, .f32⟩
  | .hbm, ⟨11, _⟩ => ⟨S_, .i32⟩
  | .hbm, ⟨12, _⟩ => ⟨S4x1x2048x2048, .i32⟩
  | .hbm, ⟨13, _⟩ => ⟨S4x1x2048x2048, .i1⟩
  | .hbm, ⟨14, _⟩ => ⟨S_, .f32⟩
  | .hbm, ⟨15, _⟩ => ⟨S4x16x2048x2048, .i1⟩
  | .hbm, ⟨16, _⟩ => ⟨S4x16x2048x2048, .f32⟩
  | .hbm, ⟨17, _⟩ => ⟨S4x16x2048x2048, .f32⟩
  | .hbm, ⟨18, _⟩ => ⟨S_, .f32⟩
  | .hbm, ⟨19, _⟩ => ⟨S4x16x2048, .f32⟩
  | .hbm, ⟨20, _⟩ => ⟨S_, .f32⟩
  | .hbm, ⟨21, _⟩ => ⟨S4x16x2048, .f32⟩
  | .hbm, ⟨22, _⟩ => ⟨S4x16x2048, .f32⟩
  | .hbm, ⟨23, _⟩ => ⟨S4x16x2048x1, .f32⟩
  | .hbm, ⟨24, _⟩ => ⟨S4x16x2048x2048, .f32⟩
  | .hbm, ⟨25, _⟩ => ⟨S4x16x2048x2048, .f32⟩
  | .hbm, ⟨26, _⟩ => ⟨S4x16x2048x2048, .f32⟩
  | .hbm, ⟨27, _⟩ => ⟨S_, .f32⟩
  | .hbm, ⟨28, _⟩ => ⟨S4x16x2048, .f32⟩
  | .hbm, ⟨29, _⟩ => ⟨S4x16x2048x1, .f32⟩
  | .hbm, ⟨30, _⟩ => ⟨S4x16x2048x2048, .f32⟩
  | .hbm, ⟨31, _⟩ => ⟨S4x16x2048x2048, .f32⟩
  | .hbm, ⟨32, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  bcast_S_S4x1x2048x2048 : S_.BroadcastsInDim S4x1x2048x2048 (![] : Fin 0 → Fin S4x1x2048x2048.rank)
  bcast_S4x1x2048x2048_S4x16x2048x2048_0_1_2_3 : S4x1x2048x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.KernelPieces.lean ====
/-
  What one run of the kernel body leaves in its two output blocks, as values of the four input blocks.

  The body loads the whole query block x0 : [1,1,512,64] and the whole mask block x3 : [1,1,512,2048],
  and from the staged key and value blocks x1, x2 : [1,16,2048,64] (all sixteen heads of one batch) only
  the head the third grid coordinate names. It stores the attention weights of the 512 query rows and
  then their product with the value rows, each through one store that covers its whole block; so each
  output block ends holding exactly that store's value.
-/
import proofs.«406819_j86380382257276_3_alg».proof.Proof.Gen.KernelIdeal.Value
import Idealize.ShloMosaic.Lib.Pipeline.Value
import Idealize.ShloMosaic.Lib.Tactic

set_option maxRecDepth 16384

noncomputable section

namespace Cert.KernelIdeal.AttnValue

open Cert.KernelIdeal Cert.KernelIdeal.Gen Idealize.ShloMosaic Idealize.ShloMosaic.TcCoe Idealize.SL.Sem
open Idealize.ShloMosaic.Pipeline (Dat)

variable {F : FTy → Type} [FloatOps F]

/-- Four zero offsets, spelt as a function. -/
theorem hz4 : (![0, 0, 0, 0] : Fin 4 → Nat) = fun _ => 0 := funext fun a => by fin_cases a <;> rfl

/-- The head the body reads out of a staged [1,16,2048,64] block at grid point i: the [1,1,2048,64]
    sub-block at head offset (i 2), the other offsets zero. -/
def headOf (i : grid0.Coords) (x : Vec F S1x16x2048x64 .f32) : Vec F S1x1x2048x64 .f32 :=
  View.ld x (Rect.unit (s := S1x16x2048x64) (k0_off1 i) S1x1x2048x64.size (k0_off1_inb i))

/-- The weights block after the body: the weights of the query block against the selected key head
    under the mask block. -/
theorem weights_block (c : Dev nD) (i : grid0.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .f32) (harg5 : arg5.IsWhole) (arg6 : Memref sig .tc .vmem S1x1x512x2048 .i32) (harg6 : arg6.IsWhole) (arg7 : Memref sig .tc .vmem S1x1x512x64 .f32) (harg7 : arg7.IsWhole) (arg8 : Memref sig .tc .vmem S1x1x512x2048 .f32) (harg8 : arg8.IsWhole)
    (x0 : Vec F S1x1x512x64 .f32) (x1 : Vec F S1x16x2048x64 .f32) (x2 : Vec F S1x16x2048x64 .f32) (x3 : Vec F S1x1x512x2048 .i32) :
    out0_A_5 c i arg3 harg3 arg4 harg4 arg5 harg5 arg6 harg6 arg7 harg7 arg8 harg8 x0 x1 x2 x3 = k0_pay4 x0 (headOf i x1) x3 := by
  unfold out0_A_5
  rw [View.read_writes_eq_canon _ _ _ (cover0_A_5 c i arg3 harg3 arg4 harg4 arg5 harg5 arg6 harg6 arg7 harg7 arg8 harg8 x0 x1 x2 x3)]
  unfold kernelRun0_A
  dsimp only
  sl_unfold_words
  rw [View.canon_unit_zero hz4]
  simp only [View.readAt_eq_ld, harg3.read_unread, harg4.read_unread, harg6.read_unread,
    View.ld_unit_zero (S := S1x1x512x64) hz4, View.ld_unit_zero (S := S1x1x512x2048) hz4]
  rfl

/-- The output block after the body: those weights applied to the selected value head. -/
theorem output_block (c : Dev nD) (i : grid0.Coords) (arg3 : Memref sig .tc .vmem S1x1x512x64 .f32) (harg3 : arg3.IsWhole) (arg4 : Memref sig .tc .vmem S1x16x2048x64 .f32) (harg4 : arg4.IsWhole) (arg5 : Memref sig .tc .vmem S1x16x2048x64 .f32) (harg5 : arg5.IsWhole) (arg6 : Memref sig .tc .vmem S1x1x512x2048 .i32) (harg6 : arg6.IsWhole) (arg7 : Memref sig .tc .vmem S1x1x512x64 .f32) (harg7 : arg7.IsWhole) (arg8 : Memref sig .tc .vmem S1x1x512x2048 .f32) (harg8 : arg8.IsWhole)
    (x0 : Vec F S1x1x512x64 .f32) (x1 : Vec F S1x16x2048x64 .f32) (x2 : Vec F S1x16x2048x64 .f32) (x3 : Vec F S1x1x512x2048 .i32) :
    out0_A_4 c i arg3 harg3 arg4 harg4 arg5 harg5 arg6 harg6 arg7 harg7 arg8 harg8 x0 x1 x2 x3 = k0_pay1 (k0_pay2 (headOf i x2)) (k0_pay3 x0 (headOf i x1) x3) := by
  unfold out0_A_4
  rw [View.read_writes_eq_canon _ _ _ (cover0_A_4 c i arg3 harg3 arg4 harg4 arg5 harg5 arg6 harg6 arg7 harg7 arg8 harg8 x0 x1 x2 x3)]
  unfold kernelRun0_A
  dsimp only
  sl_unfold_words
  rw [View.canon_unit_zero hz4]
  simp only [View.readAt_eq_ld, harg3.read_unread, harg4.read_unread, harg5.read_unread, harg6.read_unread,
    View.ld_unit_zero (S := S1x1x512x64) hz4, View.ld_unit_zero (S := S1x1x512x2048) hz4]
  rfl

end Cert.KernelIdeal.AttnValue

end
-- ==== Proof.Spec.lean ====
/-
  Scaled dot-product attention with an integer mask, written as functions of the four argument arrays
  Q, K, V : [4, 16, 2048, 64] and mask : [4, 1, 2048, 2048], over the extended reals.

  For batch b, head h and query row i the masked score of key j is the fill value where the mask word
  at (b, 0, i, j) is zero, and the scaled dot product of query row i with key row j elsewhere. A row of
  scores x is turned into weights by subtracting its maximum, exponentiating and normalizing by the sum
  of the exponentials. The output row is the weighted sum of the value rows.

  Two spellings are stated side by side. The first scales each query entry by 1/8 before the dot
  product and normalizes by multiplying with the reciprocal of the row sum; the second scales the
  finished dot product by 1 / sqrt 64 and normalizes by dividing by the row sum. They are the same
  function wherever the queries and keys are finite reals (module Bridge).
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- Queries, keys, values and the output: [batch, head, position, feature]. -/
abbrev QS : Shape := ⟨4, ![4, 16, 2048, 64]⟩
/-- The mask: [batch, 1, query position, key position], shared by the heads. -/
abbrev MS : Shape := ⟨4, ![4, 1, 2048, 2048]⟩
/-- The attention weights: [batch, head, query position, key position]. -/
abbrev AS : Shape := ⟨4, ![4, 16, 2048, 2048]⟩

/-! ## One row of scores -/

/-- The maximum of a row, starting from -inf. -/
def rowMax {n : ℕ} (x : Fin n → EReal) : EReal := (Finset.univ : Finset (Fin n)).fold max ⊥ x

/-- The exponential of a score's distance below the row maximum. -/
def rowExp {n : ℕ} (x : Fin n → EReal) (j : Fin n) : EReal := Ideal.exp (x j - rowMax x)

/-- The sum of the row's exponentials. -/
def rowSum {n : ℕ} (x : Fin n → EReal) : EReal := ∑ j : Fin n, rowExp x j

/-- The weight of entry j: its exponential times the reciprocal of the row sum. -/
def weightMul {n : ℕ} (x : Fin n → EReal) (j : Fin n) : EReal := rowExp x j * Ideal.div 1 (rowSum x)

/-- The weight of entry j: its exponential divided by the row sum. -/
def weightDiv {n : ℕ} (x : Fin n → EReal) (j : Fin n) : EReal := Ideal.div (rowExp x j) (rowSum x)

/-! ## The scores -/

/-- The finite value written where the mask is zero. -/
abbrev fillV : EReal := Ideal.ofBits .f32 0xD6B5E621#32
/-- The scale applied to each query entry: the literal 0.125. -/
abbrev scaleQ : EReal := Ideal.ofBits .f32 0x3E000000#32
/-- The scale applied to a finished dot product: 1 / sqrt 64. -/
abbrev scaleS : EReal := Ideal.div (Ideal.ofBits .f32 0x3F800000#32) (Ideal.sqrt (Ideal.ofBits .f32 0x42800000#32))

/-- Key j is masked out for query i of batch b when the mask word there is zero (an i1: 1 = masked out). -/
def maskedOut (M : MS.Idx → BitVec 32) (b : Fin 4) (i j : Fin 2048) : BitVec 1 :=
  IntOp.cmpi .eq (M (ix4 b (0 : Fin 1) i j)) 0#32

/-- Masked scores of query row (b, h, i), the queries scaled entry by entry. -/
def scoreQ (Q K : QS.Idx → EReal) (M : MS.Idx → BitVec 32) (b : Fin 4) (h : Fin 16) (i : Fin 2048) (j : Fin 2048) : EReal :=
  Scalar.select (maskedOut M b i j) fillV (∑ d : Fin 64, (Q (ix4 b h i d) * scaleQ) * K (ix4 b h j d))

/-- Masked scores of query row (b, h, i), the dot product scaled afterwards. -/
def scoreS (Q K : QS.Idx → EReal) (M : MS.Idx → BitVec 32) (b : Fin 4) (h : Fin 16) (i : Fin 2048) (j : Fin 2048) : EReal :=
  Scalar.select (maskedOut M b i j) fillV ((∑ d : Fin 64, Q (ix4 b h i d) * K (ix4 b h j d)) * scaleS)

/-! ## The two results, in both spellings -/

/-- Attention weights: scaled queries, reciprocal normalization. -/
def attnQ (Q K : QS.Idx → EReal) (M : MS.Idx → BitVec 32) : AS.Idx → EReal :=
  fun a => weightMul (scoreQ Q K M (a 0) (a 1) (a 2)) (a 3)

/-- Attention weights: scaled dot product, quotient normalization. -/
def attnS (Q K : QS.Idx → EReal) (M : MS.Idx → BitVec 32) : AS.Idx → EReal :=
  fun a => weightDiv (scoreS Q K M (a 0) (a 1) (a 2)) (a 3)

/-- The output: each query row's weights applied to the value rows (first spelling). -/
def outQ (Q K V : QS.Idx → EReal) (M : MS.Idx → BitVec 32) : QS.Idx → EReal :=
  fun o => ∑ j : Fin 2048, attnQ Q K M (ix4 (o 0) (o 1) (o 2) j) * V (ix4 (o 0) (o 1) j (o 3))

/-- The output: each query row's weights applied to the value rows (second spelling). -/
def outS (Q K V : QS.Idx → EReal) (M : MS.Idx → BitVec 32) : QS.Idx → EReal :=
  fun o => ∑ j : Fin 2048, attnS Q K M (ix4 (o 0) (o 1) (o 2) j) * V (ix4 (o 0) (o 1) j (o 3))

end Cert.Attn

end
-- ==== Proof.Literals.lean ====
/-
  The float literals the two programs spell, as the extended reals their bit patterns denote: the query
  scale 1/8, the head dimension 64 whose square root the reference divides by, the unit numerator, the
  finite fill value -100000000376832 written where the mask is zero, and the two infinities (the row
  maximum starts from -inf; the precondition compares against +inf).
-/
import Idealize.ShloMosaic.PureOps.Ideal
import Idealize.ShloMosaic.PureOps.Ideal.Laws

noncomputable section

namespace Cert.Attn.Lit

open Idealize.ShloMosaic

/-- The pattern of 0.125 denotes the real 1/8. -/
theorem eighth : Ideal.ofBits .f32 0x3E000000#32 = ((1 / 8 : ℝ) : EReal) := by
  simp [Ideal.ofBits, Ideal.ieee, -EReal.coe_mul]; norm_num

/-- The pattern of 64.0 denotes the real 64. -/
theorem sixtyfour : Ideal.ofBits .f32 0x42800000#32 = ((64 : ℝ) : EReal) := by
  simp [Ideal.ofBits, Ideal.ieee, -EReal.coe_mul]; norm_num

/-- The pattern of 1.0 denotes 1. -/
theorem one : Ideal.ofBits .f32 0x3F800000#32 = 1 := by
  simp [Ideal.ofBits, Ideal.ieee, -EReal.coe_mul]; norm_num

/-- The fill value is a finite real. -/
theorem fill : Ideal.ofBits .f32 0xD6B5E621#32 = ((-100000000376832 : ℝ) : EReal) := by
  simp [Ideal.ofBits, Ideal.ieee, -EReal.coe_mul]; norm_num

/-- The pattern 0xFF800000 denotes -inf, the bottom of the extended reals. -/
theorem neg_inf : Ideal.ofBits .f32 0xFF800000#32 = ⊥ := by
  simp [Ideal.ofBits, Ideal.ieee]

/-- The pattern 0x7F800000 denotes +inf, the top of the extended reals. -/
theorem pos_inf : Ideal.ofBits .f32 0x7F800000#32 = ⊤ := by
  simp [Ideal.ofBits, Ideal.ieee]

/-- The reference's scale: 1 divided by the square root of 64 is the real 1/8, the kernel's literal. -/
theorem scale_eq :
    Ideal.div (Ideal.ofBits .f32 0x3F800000#32) (Ideal.sqrt (Ideal.ofBits .f32 0x42800000#32))
      = Ideal.ofBits .f32 0x3E000000#32 := by
  rw [one, sixtyfour, eighth, Ideal.sqrt_coe, if_neg (by norm_num)]
  have h8 : Real.sqrt 64 = 8 := by
    rw [show (64 : ℝ) = 8 ^ 2 by norm_num]; exact Real.sqrt_sq (by norm_num)
  rw [h8, Ideal.div_coe (by norm_num : (8 : ℝ) ≠ 0), one_mul]

end Cert.Attn.Lit

end
-- ==== Proof.KernelRow.lean ====
/-
  The kernel body's arithmetic at one element, over the extended reals.

  For a query block q : [1,1,512,64], a key head kh and a value head vh : [1,1,2048,64] and a mask block
  mk : [1,1,512,2048], row r of the block's masked scores is, at key j, the fill value where the mask word
  at (r, j) is zero and otherwise the sum over the 64 features of (q r d * 1/8) * kh j d. The body turns
  each row into weights (subtract the row maximum, exponentiate, multiply by the reciprocal of the row
  sum), stores them, and stores their product with the value head: at (r, d) the sum over the 2048 keys
  of weight r j * vh j d.
-/
import proofs.«406819_j86380382257276_3_alg».proof.Proof.Gen.KernelIdeal.Skeleton
import proofs.«406819_j86380382257276_3_alg».proof.Proof.Spec
import proofs.«406819_j86380382257276_3_alg».proof.Proof.Literals
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.AttnValue

open Cert.KernelIdeal Cert.KernelIdeal.Gen Idealize.ShloMosaic Idealize.ShloMosaic.ValueIdx

/-! ## The two matrix products at an index -/

theorem qk_lhs_0 (j : S512x2048.Idx) (k : dot_S512x64_S2048x64_S512x2048_1_1_0_0_n_n.contr.Idx) :
    (dot_S512x64_S2048x64_S512x2048_1_1_0_0_n_n.lhsIdx j k 0).val = (j 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem qk_lhs_1 (j : S512x2048.Idx) (k : dot_S512x64_S2048x64_S512x2048_1_1_0_0_n_n.contr.Idx) :
    (dot_S512x64_S2048x64_S512x2048_1_1_0_0_n_n.lhsIdx j k 1).val = (k ⟨0, by decide⟩).val :=
  dot_S512x64_S2048x64_S512x2048_1_1_0_0_n_n.lhsIdx_val_of_single rfl j k
theorem qk_rhs_0 (j : S512x2048.Idx) (k : dot_S512x64_S2048x64_S512x2048_1_1_0_0_n_n.contr.Idx) :
    (dot_S512x64_S2048x64_S512x2048_1_1_0_0_n_n.rhsIdx j k 0).val = (j 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem qk_rhs_1 (j : S512x2048.Idx) (k : dot_S512x64_S2048x64_S512x2048_1_1_0_0_n_n.contr.Idx) :
    (dot_S512x64_S2048x64_S512x2048_1_1_0_0_n_n.rhsIdx j k 1).val = (k ⟨0, by decide⟩).val :=
  dot_S512x64_S2048x64_S512x2048_1_1_0_0_n_n.rhsIdx_val_of_single rfl j k

/-- Queries times keys: entry (r, j) of the product into a zero accumulator is the dot product of query
    row r with key row j over the 64 features. -/
theorem qk_apply (a : FVec Ideal S512x64 .f32) (b : FVec Ideal S2048x64 .f32) (r : Fin 512) (j : Fin 2048) :
    matmul dot_S512x64_S2048x64_S512x2048_1_1_0_0_n_n (some .fp32) a b (constant S512x2048 .f32 0x00000000#32) (ix2 r j)
      = ∑ d : Fin 64, a (ix2 r d) * b (ix2 j d) := by
  simp only [matmul]
  rw [Ideal.matmul_constant_zero_apply, ← Equiv.sum_comp (contrEquiv1 dot_S512x64_S2048x64_S512x2048_1_1_0_0_n_n 64 rfl rfl).symm]
  refine Finset.sum_congr rfl fun k _ => ?_
  have hk := contrEquiv1_symm_val dot_S512x64_S2048x64_S512x2048_1_1_0_0_n_n 64 rfl rfl k
  have el : dot_S512x64_S2048x64_S512x2048_1_1_0_0_n_n.lhsIdx (ix2 r j) ((contrEquiv1 dot_S512x64_S2048x64_S512x2048_1_1_0_0_n_n 64 rfl rfl).symm k) = ix2 r k := funext fun a => Fin.ext (by
    match a with
    | ⟨0, _⟩ => exact qk_lhs_0 _ _
    | ⟨1, _⟩ => exact (qk_lhs_1 _ _).trans hk)
  have er : dot_S512x64_S2048x64_S512x2048_1_1_0_0_n_n.rhsIdx (ix2 r j) ((contrEquiv1 dot_S512x64_S2048x64_S512x2048_1_1_0_0_n_n 64 rfl rfl).symm k) = ix2 j k := funext fun a => Fin.ext (by
    match a with
    | ⟨0, _⟩ => exact qk_rhs_0 _ _
    | ⟨1, _⟩ => exact (qk_rhs_1 _ _).trans hk)
  rw [el, er]

theorem pv_lhs_0 (j : S512x64.Idx) (k : dot_S512x2048_S2048x64_S512x64_1_0_0_1_n_n.contr.Idx) :
    (dot_S512x2048_S2048x64_S512x64_1_0_0_1_n_n.lhsIdx j k 0).val = (j 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem pv_lhs_1 (j : S512x64.Idx) (k : dot_S512x2048_S2048x64_S512x64_1_0_0_1_n_n.contr.Idx) :
    (dot_S512x2048_S2048x64_S512x64_1_0_0_1_n_n.lhsIdx j k 1).val = (k ⟨0, by decide⟩).val :=
  dot_S512x2048_S2048x64_S512x64_1_0_0_1_n_n.lhsIdx_val_of_single rfl j k
theorem pv_rhs_0 (j : S512x64.Idx) (k : dot_S512x2048_S2048x64_S512x64_1_0_0_1_n_n.contr.Idx) :
    (dot_S512x2048_S2048x64_S512x64_1_0_0_1_n_n.rhsIdx j k 0).val = (k ⟨0, by decide⟩).val :=
  dot_S512x2048_S2048x64_S512x64_1_0_0_1_n_n.rhsIdx_val_of_single rfl j k
theorem pv_rhs_1 (j : S512x64.Idx) (k : dot_S512x2048_S2048x64_S512x64_1_0_0_1_n_n.contr.Idx) :
    (dot_S512x2048_S2048x64_S512x64_1_0_0_1_n_n.rhsIdx j k 1).val = (j 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- Weights times values: entry (r, d) of the product into a zero accumulator is the sum over the 2048
    keys of weight (r, j) times value (j, d). -/
theorem pv_apply (a : FVec Ideal S512x2048 .f32) (b : FVec Ideal S2048x64 .f32) (r : Fin 512) (d : Fin 64) :
    matmul dot_S512x2048_S2048x64_S512x64_1_0_0_1_n_n (some .fp32) a b (constant S512x64 .f32 0x00000000#32) (ix2 r d)
      = ∑ j : Fin 2048, a (ix2 r j) * b (ix2 j d) := by
  simp only [matmul]
  rw [Ideal.matmul_constant_zero_apply, ← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 r d) ((contrEquiv1 dot_S512x2048_S2048x64_S512x64_1_0_0_1_n_n 2048 rfl rfl).symm k) = ix2 r k := funext fun a => Fin.ext (by
    match a with
    | ⟨0, _⟩ => exact pv_lhs_0 _ _
    | ⟨1, _⟩ => exact (pv_lhs_1 _ _).trans hk)
  have er : dot_S512x2048_S2048x64_S512x64_1_0_0_1_n_n.rhsIdx (ix2 r d) ((contrEquiv1 dot_S512x2048_S2048x64_S512x64_1_0_0_1_n_n 2048 rfl rfl).symm k) = ix2 k d := funext fun a => Fin.ext (by
    match a with
    | ⟨0, _⟩ => exact (pv_rhs_0 _ _).trans hk
    | ⟨1, _⟩ => exact pv_rhs_1 _ _)
  rw [el, er]

/-! ## Blocks with two leading unit axes, read as matrices and back -/

/-- A [1,1,a,b] block viewed as an [a,b] matrix reads (0, 0, x, y) at (x, y). -/
theorem unblock_apply {α : Type} {a b : ℕ} (v : (⟨4, ![1, 1, a, b]⟩ : Shape).Idx → α)
    (h : (⟨4, ![1, 1, a, b]⟩ : Shape).ShapeCasts ⟨2, ![a, b]⟩) (x : Fin a) (y : Fin b) :
    shapeCast ⟨2, ![a, b]⟩ v h (ix2 x y) = v (ix4 (0 : Fin 1) (0 : Fin 1) x y) :=
  shapeCast_apply v h (ix2 x y) (ix4 (0 : Fin 1) (0 : Fin 1) x y) (by
    rw [Shape.rowMajor_val_four, Shape.rowMajor_val_two]
    show (((0 * 1 + 0) * a + x.val) * b + y.val) = x.val * b + y.val
    simp only [Nat.zero_mul, Nat.zero_add])

/-- An [a,b] matrix stored as a [1,1,a,b] block reads (x, y) at (0, 0, x, y). -/
theorem block_apply {α : Type} {a b : ℕ} (v : (⟨2, ![a, b]⟩ : Shape).Idx → α)
    (h : (⟨2, ![a, b]⟩ : Shape).ShapeCasts ⟨4, ![1, 1, a, b]⟩) (x : Fin a) (y : Fin b) :
    shapeCast ⟨4, ![1, 1, a, b]⟩ v h (ix4 (0 : Fin 1) (0 : Fin 1) x y) = v (ix2 x y) :=
  shapeCast_apply v h (ix4 (0 : Fin 1) (0 : Fin 1) x y) (ix2 x y) (by
    rw [Shape.rowMajor_val_four, Shape.rowMajor_val_two]
    show x.val * b + y.val = (((0 * 1 + 0) * a + x.val) * b + y.val)
    simp only [Nat.zero_mul, Nat.zero_add])

/-- A column [512] stored as [512,1] and broadcast along the rows of [512,2048] reads entry r at (r, j). -/
theorem column_apply {α : Type} (v : S512.Idx → α) (hc : S512.ShapeCasts S512x1) (hb : S512x1.Broadcasts S512x2048)
    (r : Fin 512) (j : Fin 2048) :
    broadcastTo S512x2048 (shapeCast S512x1 v hc) hb (ix2 r j) = v (ix1 r) := by
  refine (broadcastTo_apply (shapeCast S512x1 v hc) hb (ix2 r j) (ix2 r (0 : Fin 1)) (fun a => ?_)).trans ?_
  · match a with
    | ⟨0, _⟩ => show r.val = if (512 : Nat) = 1 then 0 else r.val; rw [if_neg (by decide)]
    | ⟨1, _⟩ => show 0 = if (1 : Nat) = 1 then 0 else j.val; rw [if_pos rfl]
  · exact shapeCast_apply v hc (ix2 r (0 : Fin 1)) (ix1 r) (by
      rw [Shape.rowMajor_val_one, Shape.rowMajor_val_two]
      show r.val = r.val * 1 + 0
      omega)

/-! ## One block of scores turned into weights -/

section Rows

variable (s : FVec Ideal S512x2048 .f32)

/-- Row r of a [512, 2048] block. -/
abbrev rowOf (r : Fin 512) : Fin 2048 → EReal := fun j => s (ix2 r j)

/-- The index the lane reduction inserts: (r) with lane k is (r, k). -/
theorem lift_eq (h : S512x2048.Reduces [1] S512) (r : Fin 512) (k : Fin 2048) : h.lift (ix1 r) k = ix2 r k :=
  funext fun a => Fin.ext (by match a with | ⟨0, _⟩ => rfl | ⟨1, _⟩ => rfl)

/-- The maximum over the lanes of row r, from the -inf pattern, is the row maximum. -/
theorem lane_max (h : S512x2048.Reduces [1] S512) (hφ : FKind.Formats .f32)
    (hacc : (0xFF800000#32 : BitVec 32) = FKind.maximumf.neutral .f32 hφ) (r : Fin 512) :
    multiReduction .maximumf [1] S512 s 0xFF800000#32 h hφ hacc (ix1 r) = Cert.Attn.rowMax (rowOf s r) := by
  rw [Ideal.multiReduction_maximumf_single]
  unfold Cert.Attn.rowMax
  rw [show FloatOps.ofBits (F := Ideal) .f32 0xFF800000#32 = (⊥ : EReal) from Cert.Attn.Lit.neg_inf]
  exact congrArg (Finset.fold max ⊥ · Finset.univ) (funext fun k => congrArg s (lift_eq h r k))

/-- The sum over the lanes of row r, from the zero pattern. -/
theorem lane_sum (e : FVec Ideal S512x2048 .f32) (h : S512x2048.Reduces [1] S512) (hφ : FKind.Formats .f32)
    (hacc : (0x00000000#32 : BitVec 32) = FKind.add.neutral .f32 hφ) (r : Fin 512) :
    multiReduction .add [1] S512 e 0x00000000#32 h hφ hacc (ix1 r) = ∑ j : Fin 2048, e (ix2 r j) := by
  rw [Ideal.multiReduction_add_single]
  exact Finset.sum_congr rfl fun k _ => congrArg e (lift_eq h r k)

/-- A block of scores minus its broadcast row maxima, exponentiated: the row's exponentials. -/
theorem exps_apply (h : S512x2048.Reduces [1] S512) (hφ : FKind.Formats .f32)
    (hacc : (0xFF800000#32 : BitVec 32) = FKind.maximumf.neutral .f32 hφ)
    (hc : S512.ShapeCasts S512x1) (hb : S512x1.Broadcasts S512x2048) (r : Fin 512) (j : Fin 2048) :
    exp (subf s (broadcastTo S512x2048 (shapeCast S512x1 (multiReduction .maximumf [1] S512 s 0xFF800000#32 h hφ hacc) hc) hb)) (ix2 r j)
      = Cert.Attn.rowExp (rowOf s r) j := by
  show Ideal.exp (s (ix2 r j) - broadcastTo S512x2048 (shapeCast S512x1 (multiReduction .maximumf [1] S512 s 0xFF800000#32 h hφ hacc) hc) hb (ix2 r j)) = _
  rw [column_apply, lane_max]
  rfl

/-- The whole chain from a block of scores to its weights, at (r, j): the row's exponential at j times the
    reciprocal of the row sum. -/
theorem weights_of_scores (h : S512x2048.Reduces [1] S512) (hφ : FKind.Formats .f32)
    (hmax : (0xFF800000#32 : BitVec 32) = FKind.maximumf.neutral .f32 hφ)
    (hadd : (0x00000000#32 : BitVec 32) = FKind.add.neutral .f32 hφ)
    (hc : S512.ShapeCasts S512x1) (hb : S512x1.Broadcasts S512x2048) (r : Fin 512) (j : Fin 2048) :
    mulf (exp (subf s (broadcastTo S512x2048 (shapeCast S512x1 (multiReduction .maximumf [1] S512 s 0xFF800000#32 h hφ hmax) hc) hb)))
      (broadcastTo S512x2048
        (divf (broadcast S512x1 (Scalar.ofBits (F := Ideal) .f32 0x3F800000#32))
          (shapeCast S512x1 (multiReduction .add [1] S512
            (exp (subf s (broadcastTo S512x2048 (shapeCast S512x1 (multiReduction .maximumf [1] S512 s 0xFF800000#32 h hφ hmax) hc) hb)))
            0x00000000#32 h hφ hadd) hc)) hb) (ix2 r j)
      = Cert.Attn.weightMul (rowOf s r) j := by
  rw [mulf_apply, exps_apply]
  unfold Cert.Attn.weightMul Cert.Attn.rowSum
  congr 1
  refine (broadcastTo_apply _ hb (ix2 r j) (ix2 r (0 : Fin 1)) (fun a => ?_)).trans ?_
  · match a with
    | ⟨0, _⟩ => show r.val = if (512 : Nat) = 1 then 0 else r.val; rw [if_neg (by decide)]
    | ⟨1, _⟩ => show 0 = if (1 : Nat) = 1 then 0 else j.val; rw [if_pos rfl]
  · rw [divf_apply, broadcast_apply]
    rw [shapeCast_apply _ hc (ix2 r (0 : Fin 1)) (ix1 r) (by
      rw [Shape.rowMajor_val_one, Shape.rowMajor_val_two]
      show r.val = r.val * 1 + 0
      omega)]
    rw [lane_sum]
    rw [show Scalar.ofBits (F := Ideal) .f32 0x3F800000#32 = (1 : EReal) from Cert.Attn.Lit.one]
    exact congrArg (Ideal.div 1) (Finset.sum_congr rfl fun k _ => exps_apply s h hφ hmax hc hb r k)

end Rows

/-! ## The body's two stored values -/

section Body

variable (q : Vec Ideal S1x1x512x64 .f32) (kh vh : Vec Ideal S1x1x2048x64 .f32) (mk : Vec Ideal S1x1x512x2048 .i32)

/-- Row r of the block's masked scores, the queries scaled entry by entry. -/
def blockScore (r : Fin 512) (j : Fin 2048) : EReal :=
  Scalar.select (IntOp.cmpi .eq (mk (ix4 (0 : Fin 1) (0 : Fin 1) r j)) 0#32) Cert.Attn.fillV
    (∑ d : Fin 64, (q (ix4 (0 : Fin 1) (0 : Fin 1) r d) * Cert.Attn.scaleQ) * kh (ix4 (0 : Fin 1) (0 : Fin 1) j d))

/-- The weights the body computes, at (r, j): the weight of key j in row r of the masked scores. -/
theorem weights_apply (r : Fin 512) (j : Fin 2048) :
    k0_pay3 q kh mk (ix2 r j) = Cert.Attn.weightMul (blockScore q kh mk r) j := by
  unfold k0_pay3
  dsimp only
  refine (weights_of_scores _ _ _ _ _ _ _ r j).trans ?_
  refine congrArg (fun f => Cert.Attn.weightMul f j) (funext fun j' => ?_)
  show select _ _ _ (ix2 r j') = _
  rw [select_apply]
  unfold blockScore
  congr 1
  · show IntOp.cmpi .eq (shapeCast S512x2048 mk _ (ix2 r j')) _ = _
    rw [unblock_apply]
    rfl
  · rw [qk_apply]
    refine Finset.sum_congr rfl fun d _ => ?_
    rw [mulf_apply, unblock_apply, unblock_apply]
    rfl

/-- The weights block the body stores, at row r and key j of the block. -/
theorem weights_block_apply (r : Fin 512) (j : Fin 2048) :
    k0_pay4 q kh mk (ix4 (0 : Fin 1) (0 : Fin 1) r j) = Cert.Attn.weightMul (blockScore q kh mk r) j := by
  unfold k0_pay4
  rw [block_apply]
  exact weights_apply q kh mk r j

/-- The output block the body stores, at row r and feature d of the block: the weights of row r applied
    to feature d of the value rows. -/
theorem output_block_apply (w : FVec Ideal S512x2048 .f32) (r : Fin 512) (d : Fin 64) :
    k0_pay1 (k0_pay2 vh) w (ix4 (0 : Fin 1) (0 : Fin 1) r d)
      = ∑ j : Fin 2048, w (ix2 r j) * vh (ix4 (0 : Fin 1) (0 : Fin 1) j d) := by
  unfold k0_pay1 k0_pay2
  dsimp only
  rw [block_apply, pv_apply]
  refine Finset.sum_congr rfl fun j _ => ?_
  rw [unblock_apply]

end Body

end Cert.KernelIdeal.AttnValue

end
-- ==== Proof.KernelBlocks.lean ====
/-
  What each grid point writes back is a block of one function of the whole argument arrays.

  The grid point (b, i, h) — batch, query tile, head — reads query rows 512 i .. 512 i + 511 of (b, h), all
  of batch b's keys and values (the body picks head h), and mask rows 512 i .. of batch b; it writes rows
  512 i .. of (b, h) of both results. So entry (r, j) of its weights block is the attention weight at
  (b, h, 512 i + r, j) of the whole arrays, and entry (r, d) of its output block the output at
  (b, h, 512 i + r, d): the blocks are restrictions of the whole-array functions attnQ and outQ.
-/
import proofs.«406819_j86380382257276_3_alg».proof.Proof.KernelPieces
import proofs.«406819_j86380382257276_3_alg».proof.Proof.KernelRow

set_option maxRecDepth 16384

noncomputable section

namespace Cert.KernelIdeal.AttnValue

open Cert.KernelIdeal Cert.KernelIdeal.Gen Idealize.ShloMosaic Idealize.ShloMosaic.TcCoe Idealize.SL.Sem Idealize.ShloMosaic.ValueIdx
open Idealize.ShloMosaic.Pipeline (Dat)

/-! ## One block against the whole arrays, over explicit coordinates -/

section Point

variable (Q K V : Cert.Attn.QS.Idx → EReal) (M : Cert.Attn.MS.Idx → BitVec 32)
variable (q : Vec Ideal S1x1x512x64 .f32) (kh vh : Vec Ideal S1x1x2048x64 .f32) (mk : Vec Ideal S1x1x512x2048 .i32)
variable (b : Fin 4) (h : Fin 16) (i : Fin 2048) (r : Fin 512)

/-- If row r of the query block is query row (b, h, i), the key head is head (b, h) of the keys and row r
    of the mask block is mask row (b, 0, i), then row r of the block's masked scores is the score row of
    (b, h, i). -/
theorem blockScore_eq
    (hq : ∀ d : Fin 64, q (ix4 (0 : Fin 1) (0 : Fin 1) r d) = Q (ix4 b h i d))
    (hk : ∀ (j : Fin 2048) (d : Fin 64), kh (ix4 (0 : Fin 1) (0 : Fin 1) j d) = K (ix4 b h j d))
    (hm : ∀ j : Fin 2048, mk (ix4 (0 : Fin 1) (0 : Fin 1) r j) = M (ix4 b (0 : Fin 1) i j)) :
    blockScore q kh mk r = Cert.Attn.scoreQ Q K M b h i := by
  funext j
  unfold blockScore Cert.Attn.scoreQ Cert.Attn.maskedOut
  rw [hm j]
  congr 1
  exact Finset.sum_congr rfl fun d _ => by rw [hq d, hk j d]

/-- Then entry (r, j) of the stored weights block is the attention weight at (b, h, i, j). -/
theorem weights_point
    (hq : ∀ d : Fin 64, q (ix4 (0 : Fin 1) (0 : Fin 1) r d) = Q (ix4 b h i d))
    (hk : ∀ (j : Fin 2048) (d : Fin 64), kh (ix4 (0 : Fin 1) (0 : Fin 1) j d) = K (ix4 b h j d))
    (hm : ∀ j : Fin 2048, mk (ix4 (0 : Fin 1) (0 : Fin 1) r j) = M (ix4 b (0 : Fin 1) i j)) (j : Fin 2048) :
    k0_pay4 q kh mk (ix4 (0 : Fin 1) (0 : Fin 1) r j) = Cert.Attn.attnQ Q K M (ix4 b h i j) := by
  rw [weights_block_apply, blockScore_eq Q K M q kh mk b h i r hq hk hm]
  rfl

/-- And entry (r, d) of the stored output block is the output at (b, h, i, d), when the value head is head
    (b, h) of the values. -/
theorem output_point
    (hq : ∀ d : Fin 64, q (ix4 (0 : Fin 1) (0 : Fin 1) r d) = Q (ix4 b h i d))
    (hk : ∀ (j : Fin 2048) (d : Fin 64), kh (ix4 (0 : Fin 1) (0 : Fin 1) j d) = K (ix4 b h j d))
    (hv : ∀ (j : Fin 2048) (d : Fin 64), vh (ix4 (0 : Fin 1) (0 : Fin 1) j d) = V (ix4 b h j d))
    (hm : ∀ j : Fin 2048, mk (ix4 (0 : Fin 1) (0 : Fin 1) r j) = M (ix4 b (0 : Fin 1) i j)) (d : Fin 64) :
    k0_pay1 (k0_pay2 vh) (k0_pay3 q kh mk) (ix4 (0 : Fin 1) (0 : Fin 1) r d) = Cert.Attn.outQ Q K V M (ix4 b h i d) := by
  rw [output_block_apply]
  show _ = ∑ j : Fin 2048, Cert.Attn.attnQ Q K M (ix4 b h i j) * V (ix4 b h j d)
  refine Finset.sum_congr rfl fun j _ => ?_
  rw [weights_apply, blockScore_eq Q K M q kh mk b h i r hq hk hm, hv j d]
  rfl

end Point

/-! ## The printed index maps, over the 256 grid points -/

/-- Where each window's block sits at a grid point, relative to the weights window's block index
    (batch, head, query tile, 0): the query and output blocks at the same place, the keys and values at
    (batch, 0, 0, 0), the mask at (batch, 0, query tile, 0); the head the body selects is the block's head. -/
theorem idx_facts : ∀ t : Fin cfg0.N,
    win0_0.index t (0 : Fin 4) = win0_5.index t (0 : Fin 4) ∧ win0_0.index t (1 : Fin 4) = win0_5.index t (1 : Fin 4)
    ∧ win0_0.index t (2 : Fin 4) = win0_5.index t (2 : Fin 4) ∧ win0_0.index t (3 : Fin 4) = 0
    ∧ win0_1.index t (0 : Fin 4) = win0_5.index t (0 : Fin 4) ∧ win0_1.index t (1 : Fin 4) = 0
    ∧ win0_1.index t (2 : Fin 4) = 0 ∧ win0_1.index t (3 : Fin 4) = 0
    ∧ win0_2.index t (0 : Fin 4) = win0_5.index t (0 : Fin 4) ∧ win0_2.index t (1 : Fin 4) = 0
    ∧ win0_2.index t (2 : Fin 4) = 0 ∧ win0_2.index t (3 : Fin 4) = 0
    ∧ win0_3.index t (0 : Fin 4) = win0_5.index t (0 : Fin 4) ∧ win0_3.index t (1 : Fin 4) = 0
    ∧ win0_3.index t (2 : Fin 4) = win0_5.index t (2 : Fin 4) ∧ win0_3.index t (3 : Fin 4) = 0
    ∧ win0_4.index t (0 : Fin 4) = win0_5.index t (0 : Fin 4) ∧ win0_4.index t (1 : Fin 4) = win0_5.index t (1 : Fin 4)
    ∧ win0_4.index t (2 : Fin 4) = win0_5.index t (2 : Fin 4) ∧ win0_4.index t (3 : Fin 4) = 0
    ∧ (grid0.coords t (2 : Fin 3)).val = win0_5.index t (1 : Fin 4)
    ∧ win0_5.index t (0 : Fin 4) ≤ 3 ∧ win0_5.index t (1 : Fin 4) ≤ 15 ∧ win0_5.index t (2 : Fin 4) ≤ 3 ∧ win0_5.index t (3 : Fin 4) = 0 :=
  (by decide +kernel : ∀ t : Fin grid0.N, _)

/-! ## The blocks a grid point reads, against the whole arrays -/

section Blocks

variable (m : (ℓ : Loc nD τ sig) → Buf (Elt Ideal) ℓ)

/-- The query block at point t: row r, feature d is the query array at (batch, head, 512 * tile + r, d). -/
theorem query_block (c : Dev nD) (t : Fin cfg0.N) (b : Fin 4) (h : Fin 16) (i : Fin 2048) (r : Fin 512)
    (hb : b.val = win0_5.index t (0 : Fin 4)) (hh : h.val = win0_5.index t (1 : Fin 4))
    (hi : i.val = win0_5.index t (2 : Fin 4) * 512 + r.val) (d : Fin 64) :
    iblk m c 0 t (ix4 (0 : Fin 1) (0 : Fin 1) r d) = V m c main_arg0 (ix4 b h i d) := by
  obtain ⟨e00, e01, e02, e03, -⟩ := idx_facts t
  show V m c main_arg0 (((cfg0.win 0).blk t).view.emb (ix4 (0 : Fin 1) (0 : Fin 1) r d)) = _
  refine congrArg (V m c main_arg0) (funext fun a => Fin.ext ?_)
  match a with
  | ⟨0, _⟩ => show win0_0.index t (0 : Fin 4) * 1 + 1 * 0 = b.val; omega
  | ⟨1, _⟩ => show win0_0.index t (1 : Fin 4) * 1 + 1 * 0 = h.val; omega
  | ⟨2, _⟩ => show win0_0.index t (2 : Fin 4) * 512 + 1 * r.val = i.val; omega
  | ⟨3, _⟩ => show win0_0.index t (3 : Fin 4) * 64 + 1 * d.val = d.val; omega

/-- The head offset the body loads through at point t, coordinate by coordinate: only the head axis moves,
    by the point's third grid coordinate. -/
theorem head_off (t : Fin cfg0.N) :
    k0_off1 (grid0.coords t) (0 : Fin 4) = 0 ∧ k0_off1 (grid0.coords t) (1 : Fin 4) = (grid0.coords t (2 : Fin 3)).val
    ∧ k0_off1 (grid0.coords t) (2 : Fin 4) = 0 ∧ k0_off1 (grid0.coords t) (3 : Fin 4) = 0 := by
  rw [k0_off1_eq]
  exact ⟨rfl, rfl, rfl, rfl⟩

/-- The key head the body selects at point t: row j, feature d is the key array at (batch, head, j, d). -/
theorem key_block (c : Dev nD) (t : Fin cfg0.N) (b : Fin 4) (h : Fin 16)
    (hb : b.val = win0_5.index t (0 : Fin 4)) (hh : h.val = win0_5.index t (1 : Fin 4)) (j : Fin 2048) (d : Fin 64) :
    headOf (grid0.coords t) (iblk m c 1 t) (ix4 (0 : Fin 1) (0 : Fin 1) j d) = V m c main_arg1 (ix4 b h j d) := by
  obtain ⟨-, -, -, -, e10, e11, e12, e13, -, -, -, -, -, -, -, -, -, -, -, -, eh, -⟩ := idx_facts t
  obtain ⟨o0, o1, o2, o3⟩ := head_off t
  show V m c main_arg1 (((cfg0.win 1).blk t).view.emb
    ((Rect.unit (s := S1x16x2048x64) (k0_off1 (grid0.coords t)) S1x1x2048x64.size (k0_off1_inb (grid0.coords t))).idx
      (ix4 (0 : Fin 1) (0 : Fin 1) j d))) = _
  refine congrArg (V m c main_arg1) (funext fun a => Fin.ext ?_)
  match a with
  | ⟨0, _⟩ => show win0_1.index t (0 : Fin 4) * 1 + 1 * (k0_off1 (grid0.coords t) (0 : Fin 4) + 1 * 0) = b.val; omega
  | ⟨1, _⟩ => show win0_1.index t (1 : Fin 4) * 16 + 1 * (k0_off1 (grid0.coords t) (1 : Fin 4) + 1 * 0) = h.val; omega
  | ⟨2, _⟩ => show win0_1.index t (2 : Fin 4) * 2048 + 1 * (k0_off1 (grid0.coords t) (2 : Fin 4) + 1 * j.val) = j.val; omega
  | ⟨3, _⟩ => show win0_1.index t (3 : Fin 4) * 64 + 1 * (k0_off1 (grid0.coords t) (3 : Fin 4) + 1 * d.val) = d.val; omega

/-- The value head the body selects at point t: row j, feature d is the value array at (batch, head, j, d). -/
theorem value_block (c : Dev nD) (t : Fin cfg0.N) (b : Fin 4) (h : Fin 16)
    (hb : b.val = win0_5.index t (0 : Fin 4)) (hh : h.val = win0_5.index t (1 : Fin 4)) (j : Fin 2048) (d : Fin 64) :
    headOf (grid0.coords t) (iblk m c 2 t) (ix4 (0 : Fin 1) (0 : Fin 1) j d) = V m c main_arg2 (ix4 b h j d) := by
  obtain ⟨-, -, -, -, -, -, -, -, e20, e21, e22, e23, -, -, -, -, -, -, -, -, eh, -⟩ := idx_facts t
  obtain ⟨o0, o1, o2, o3⟩ := head_off t
  show V m c main_arg2 (((cfg0.win 2).blk t).view.emb
    ((Rect.unit (s := S1x16x2048x64) (k0_off1 (grid0.coords t)) S1x1x2048x64.size (k0_off1_inb (grid0.coords t))).idx
      (ix4 (0 : Fin 1) (0 : Fin 1) j d))) = _
  refine congrArg (V m c main_arg2) (funext fun a => Fin.ext ?_)
  match a with
  | ⟨0, _⟩ => show win0_2.index t (0 : Fin 4) * 1 + 1 * (k0_off1 (grid0.coords t) (0 : Fin 4) + 1 * 0) = b.val; omega
  | ⟨1, _⟩ => show win0_2.index t (1 : Fin 4) * 16 + 1 * (k0_off1 (grid0.coords t) (1 : Fin 4) + 1 * 0) = h.val; omega
  | ⟨2, _⟩ => show win0_2.index t (2 : Fin 4) * 2048 + 1 * (k0_off1 (grid0.coords t) (2 : Fin 4) + 1 * j.val) = j.val; omega
  | ⟨3, _⟩ => show win0_2.index t (3 : Fin 4) * 64 + 1 * (k0_off1 (grid0.coords t) (3 : Fin 4) + 1 * d.val) = d.val; omega

/-- The mask block at point t: row r, key j is the mask array at (batch, 0, 512 * tile + r, j). -/
theorem mask_block (c : Dev nD) (t : Fin cfg0.N) (b : Fin 4) (i : Fin 2048) (r : Fin 512)
    (hb : b.val = win0_5.index t (0 : Fin 4)) (hi : i.val = win0_5.index t (2 : Fin 4) * 512 + r.val) (j : Fin 2048) :
    iblk m c 3 t (ix4 (0 : Fin 1) (0 : Fin 1) r j) = V m c main_arg3 (ix4 b (0 : Fin 1) i j) := by
  obtain ⟨-, -, -, -, -, -, -, -, -, -, -, -, e30, e31, e32, e33, -⟩ := idx_facts t
  show V m c main_arg3 (((cfg0.win 3).blk t).view.emb (ix4 (0 : Fin 1) (0 : Fin 1) r j)) = _
  refine congrArg (V m c main_arg3) (funext fun a => Fin.ext ?_)
  match a with
  | ⟨0, _⟩ => show win0_3.index t (0 : Fin 4) * 1 + 1 * 0 = b.val; omega
  | ⟨1, _⟩ => show win0_3.index t (1 : Fin 4) * 1 + 1 * 0 = 0; omega
  | ⟨2, _⟩ => show win0_3.index t (2 : Fin 4) * 512 + 1 * r.val = i.val; omega
  | ⟨3, _⟩ => show win0_3.index t (3 : Fin 4) * 2048 + 1 * j.val = j.val; omega

/-- Where entry (r, j) of point t's weights block sits in the weights array. -/
theorem weights_emb (t : Fin cfg0.N) (b : Fin 4) (h : Fin 16) (i : Fin 2048) (r : Fin 512)
    (hb : b.val = win0_5.index t (0 : Fin 4)) (hh : h.val = win0_5.index t (1 : Fin 4))
    (hi : i.val = win0_5.index t (2 : Fin 4) * 512 + r.val) (j : Fin 2048) :
    ((cfg0.win 5).blk t).view.emb (ix4 (0 : Fin 1) (0 : Fin 1) r j) = ix4 b h i j := by
  obtain ⟨-, -, -, -, -, -, -, -, -, -, -, -, -, -, -, -, -, -, -, -, -, -, -, -, e53⟩ := idx_facts t
  refine funext fun a => Fin.ext ?_
  match a with
  | ⟨0, _⟩ => show win0_5.index t (0 : Fin 4) * 1 + 1 * 0 = b.val; omega
  | ⟨1, _⟩ => show win0_5.index t (1 : Fin 4) * 1 + 1 * 0 = h.val; omega
  | ⟨2, _⟩ => show win0_5.index t (2 : Fin 4) * 512 + 1 * r.val = i.val; omega
  | ⟨3, _⟩ => show win0_5.index t (3 : Fin 4) * 2048 + 1 * j.val = j.val; omega

/-- Where entry (r, d) of point t's output block sits in the output array. -/
theorem output_emb (t : Fin cfg0.N) (b : Fin 4) (h : Fin 16) (i : Fin 2048) (r : Fin 512)
    (hb : b.val = win0_5.index t (0 : Fin 4)) (hh : h.val = win0_5.index t (1 : Fin 4))
    (hi : i.val = win0_5.index t (2 : Fin 4) * 512 + r.val) (d : Fin 64) :
    ((cfg0.win 4).blk t).view.emb (ix4 (0 : Fin 1) (0 : Fin 1) r d) = ix4 b h i d := by
  obtain ⟨-, -, -, -, -, -, -, -, -, -, -, -, -, -, -, -, e40, e41, e42, e43, -⟩ := idx_facts t
  refine funext fun a => Fin.ext ?_
  match a with
  | ⟨0, _⟩ => show win0_4.index t (0 : Fin 4) * 1 + 1 * 0 = b.val; omega
  | ⟨1, _⟩ => show win0_4.index t (1 : Fin 4) * 1 + 1 * 0 = h.val; omega
  | ⟨2, _⟩ => show win0_4.index t (2 : Fin 4) * 512 + 1 * r.val = i.val; omega
  | ⟨3, _⟩ => show win0_4.index t (3 : Fin 4) * 64 + 1 * d.val = d.val; omega

/-! ## What each point writes back -/

/-- Point t writes back its block of the attention weights of the whole arguments. -/
theorem weights_flushed (c : Dev nD) (t : Fin cfg0.N) :
    (dats m 0 c).flushed 5 t = ((cfg0.win 5).blk t).view.read (Elt Ideal)
      (Cert.Attn.attnQ (V m c main_arg0) (V m c main_arg1) (V m c main_arg3)) := by
  obtain ⟨-, -, -, -, -, -, -, -, -, -, -, -, -, -, -, -, -, -, -, -, -, r0, r1, r2, -⟩ := idx_facts t
  rw [Cert.KernelIdeal.Value.flushed5_A]
  rw [weights_block c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t)]
  funext y
  have hy0 : (y 0).val < 1 := (y 0).isLt
  have hy1 : (y 1).val < 1 := (y 1).isLt
  have hy2 : (y 2).val < 512 := (y 2).isLt
  have hy3 : (y 3).val < 2048 := (y 3).isLt
  have hy : y = ix4 (0 : Fin 1) (0 : Fin 1) (⟨(y 2).val, hy2⟩ : Fin 512) (⟨(y 3).val, hy3⟩ : Fin 2048) :=
    funext fun a => Fin.ext (by
      match a with
      | ⟨0, _⟩ => show (y 0).val = 0; omega
      | ⟨1, _⟩ => show (y 1).val = 0; omega
      | ⟨2, _⟩ => rfl
      | ⟨3, _⟩ => rfl)
  show k0_pay4 (iblk m c 0 t) (headOf (grid0.coords t) (iblk m c 1 t)) (iblk m c 3 t) y
    = Cert.Attn.attnQ (V m c main_arg0) (V m c main_arg1) (V m c main_arg3) (((cfg0.win 5).blk t).view.emb y)
  refine (congrArg (k0_pay4 (iblk m c 0 t) (headOf (grid0.coords t) (iblk m c 1 t)) (iblk m c 3 t)) hy).trans ?_
  refine Eq.trans ?_ (congrArg (fun z => Cert.Attn.attnQ (V m c main_arg0) (V m c main_arg1) (V m c main_arg3)
    (((cfg0.win 5).blk t).view.emb z)) hy).symm
  have hb : ((⟨win0_5.index t (0 : Fin 4), by omega⟩ : Fin 4)).val = win0_5.index t (0 : Fin 4) := rfl
  have hh : ((⟨win0_5.index t (1 : Fin 4), by omega⟩ : Fin 16)).val = win0_5.index t (1 : Fin 4) := rfl
  have hi : ((⟨win0_5.index t (2 : Fin 4) * 512 + (y 2).val, by omega⟩ : Fin 2048)).val
      = win0_5.index t (2 : Fin 4) * 512 + ((⟨(y 2).val, hy2⟩ : Fin 512)).val := rfl
  show _ = Cert.Attn.attnQ (V m c main_arg0) (V m c main_arg1) (V m c main_arg3)
    (((cfg0.win 5).blk t).view.emb (ix4 (0 : Fin 1) (0 : Fin 1) (⟨(y 2).val, hy2⟩ : Fin 512) (⟨(y 3).val, hy3⟩ : Fin 2048)))
  rw [weights_emb t _ _ _ _ hb hh hi]
  exact weights_point _ _ _ _ _ _ _ _ _ _
    (query_block m c t _ _ _ _ hb hh hi) (key_block m c t _ _ hb hh) (mask_block m c t _ _ _ hb hi) _

/-- Point t writes back its block of the attention output of the whole arguments. -/
theorem output_flushed (c : Dev nD) (t : Fin cfg0.N) :
    (dats m 0 c).flushed 4 t = ((cfg0.win 4).blk t).view.read (Elt Ideal)
      (Cert.Attn.outQ (V m c main_arg0) (V m c main_arg1) (V m c main_arg2) (V m c main_arg3)) := by
  obtain ⟨-, -, -, -, -, -, -, -, -, -, -, -, -, -, -, -, -, -, -, -, -, r0, r1, r2, -⟩ := idx_facts t
  rw [Cert.KernelIdeal.Value.flushed4_A]
  rw [output_block c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t)]
  funext y
  have hy0 : (y 0).val < 1 := (y 0).isLt
  have hy1 : (y 1).val < 1 := (y 1).isLt
  have hy2 : (y 2).val < 512 := (y 2).isLt
  have hy3 : (y 3).val < 64 := (y 3).isLt
  have hy : y = ix4 (0 : Fin 1) (0 : Fin 1) (⟨(y 2).val, hy2⟩ : Fin 512) (⟨(y 3).val, hy3⟩ : Fin 64) :=
    funext fun a => Fin.ext (by
      match a with
      | ⟨0, _⟩ => show (y 0).val = 0; omega
      | ⟨1, _⟩ => show (y 1).val = 0; omega
      | ⟨2, _⟩ => rfl
      | ⟨3, _⟩ => rfl)
  show k0_pay1 (k0_pay2 (headOf (grid0.coords t) (iblk m c 2 t)))
      (k0_pay3 (iblk m c 0 t) (headOf (grid0.coords t) (iblk m c 1 t)) (iblk m c 3 t)) y
    = Cert.Attn.outQ (V m c main_arg0) (V m c main_arg1) (V m c main_arg2) (V m c main_arg3) (((cfg0.win 4).blk t).view.emb y)
  refine (congrArg (k0_pay1 (k0_pay2 (headOf (grid0.coords t) (iblk m c 2 t)))
      (k0_pay3 (iblk m c 0 t) (headOf (grid0.coords t) (iblk m c 1 t)) (iblk m c 3 t))) hy).trans ?_
  refine Eq.trans ?_ (congrArg (fun z => Cert.Attn.outQ (V m c main_arg0) (V m c main_arg1) (V m c main_arg2) (V m c main_arg3)
    (((cfg0.win 4).blk t).view.emb z)) hy).symm
  have hb : ((⟨win0_5.index t (0 : Fin 4), by omega⟩ : Fin 4)).val = win0_5.index t (0 : Fin 4) := rfl
  have hh : ((⟨win0_5.index t (1 : Fin 4), by omega⟩ : Fin 16)).val = win0_5.index t (1 : Fin 4) := rfl
  have hi : ((⟨win0_5.index t (2 : Fin 4) * 512 + (y 2).val, by omega⟩ : Fin 2048)).val
      = win0_5.index t (2 : Fin 4) * 512 + ((⟨(y 2).val, hy2⟩ : Fin 512)).val := rfl
  show _ = Cert.Attn.outQ (V m c main_arg0) (V m c main_arg1) (V m c main_arg2) (V m c main_arg3)
    (((cfg0.win 4).blk t).view.emb (ix4 (0 : Fin 1) (0 : Fin 1) (⟨(y 2).val, hy2⟩ : Fin 512) (⟨(y 3).val, hy3⟩ : Fin 64)))
  rw [output_emb t _ _ _ _ hb hh hi]
  exact output_point _ _ _ _ _ _ _ _ _ _ _ _
    (query_block m c t _ _ _ _ hb hh hi) (key_block m c t _ _ hb hh) (value_block m c t _ _ hb hh)
    (mask_block m c t _ _ _ hb hi) _

end Blocks

end Cert.KernelIdeal.AttnValue

end
-- ==== Proof.KernelFinal.lean ====
/-
  The two result arrays after the kernel's run.

  The 256 grid points' blocks tile both result arrays: index (b, h, p, x) lies in the block of the one
  point with batch b, head h and query tile p / 512. Every point writes back its block of the
  whole-array functions (module KernelBlocks), so after the run the output array is outQ and the weights
  array is attnQ of the four arguments as the run found them, and the arguments are unchanged.
-/
import proofs.«406819_j86380382257276_3_alg».proof.Proof.KernelBlocks

set_option maxRecDepth 16384

noncomputable section

namespace Cert.KernelIdeal.AttnValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Every (batch, head, query tile) is some grid point's block index, for both result windows. -/
theorem idx_onto : ∀ (q0 : Fin 4) (q1 : Fin 16) (q2 : Fin 4), ∃ t : Fin cfg0.N,
    win0_5.index t = ![q0.val, q1.val, q2.val, 0] ∧ win0_4.index t = ![q0.val, q1.val, q2.val, 0] :=
  (by decide +kernel : ∀ (q0 : Fin 4) (q1 : Fin 16) (q2 : Fin 4), ∃ t : Fin grid0.N,
    win0_5.index t = ![q0.val, q1.val, q2.val, 0] ∧ win0_4.index t = ![q0.val, q1.val, q2.val, 0])

/-- An index of the weights array is in point t's block iff each coordinate is in the block's range. -/
theorem mem_weights_blk (t : Fin cfg0.N) (i : S4x16x2048x2048.Idx) :
    i ∈ ((cfg0.win 5).blk t).view.set ↔ ∀ a : Fin 4, win0_5.index t a * S1x1x512x2048.size a ≤ (i a).val
      ∧ (i a).val < win0_5.index t a * S1x1x512x2048.size a + S1x1x512x2048.size a := by
  show i ∈ ((View.whole main_v0_1).slice (win0_5.rect t)).set ↔ _
  rw [View.set_slice_whole, Rect.mem_set_unit]
  exact Iff.rfl

/-- An index of the output array is in point t's block iff each coordinate is in the block's range. -/
theorem mem_output_blk (t : Fin cfg0.N) (i : S4x16x2048x64.Idx) :
    i ∈ ((cfg0.win 4).blk t).view.set ↔ ∀ a : Fin 4, win0_4.index t a * S1x1x512x64.size a ≤ (i a).val
      ∧ (i a).val < win0_4.index t a * S1x1x512x64.size a + S1x1x512x64.size a := by
  show i ∈ ((View.whole main_v0_0).slice (win0_4.rect t)).set ↔ _
  rw [View.set_slice_whole, Rect.mem_set_unit]
  exact Iff.rfl

/-- Every index of the weights array is in some point's block. -/
theorem weights_cover (i : S4x16x2048x2048.Idx) :
    ∃ t : Fin cfg0.N, (cfg0.win 5).flush t = true ∧ i ∈ ((cfg0.win 5).blk t).view.set := by
  have hi0 : (i 0).val < 4 := (i 0).isLt
  have hi1 : (i 1).val < 16 := (i 1).isLt
  have hi2 : (i 2).val < 2048 := (i 2).isLt
  have hi3 : (i 3).val < 2048 := (i 3).isLt
  obtain ⟨t, ht, -⟩ := idx_onto ⟨(i 0).val, hi0⟩ ⟨(i 1).val, hi1⟩ ⟨(i 2).val / 512, by omega⟩
  have q0 : win0_5.index t (0 : Fin 4) = (i 0).val := congrFun ht 0
  have q1 : win0_5.index t (1 : Fin 4) = (i 1).val := congrFun ht 1
  have q2 : win0_5.index t (2 : Fin 4) = (i 2).val / 512 := congrFun ht 2
  have q3 : win0_5.index t (3 : Fin 4) = 0 := congrFun ht 3
  refine ⟨t, flush0_5 t, ?_⟩
  rw [mem_weights_blk]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 512 ≤ (i 2).val ∧ (i 2).val < win0_5.index t (2 : Fin 4) * 512 + 512; omega
  | ⟨3, _⟩ => show win0_5.index t (3 : Fin 4) * 2048 ≤ (i 3).val ∧ (i 3).val < win0_5.index t (3 : Fin 4) * 2048 + 2048; omega

/-- Every index of the output array is in some point's block. -/
theorem output_cover (i : S4x16x2048x64.Idx) :
    ∃ t : Fin cfg0.N, (cfg0.win 4).flush t = true ∧ i ∈ ((cfg0.win 4).blk t).view.set := by
  have hi0 : (i 0).val < 4 := (i 0).isLt
  have hi1 : (i 1).val < 16 := (i 1).isLt
  have hi2 : (i 2).val < 2048 := (i 2).isLt
  have hi3 : (i 3).val < 64 := (i 3).isLt
  obtain ⟨t, -, ht⟩ := idx_onto ⟨(i 0).val, hi0⟩ ⟨(i 1).val, hi1⟩ ⟨(i 2).val / 512, by omega⟩
  have q0 : win0_4.index t (0 : Fin 4) = (i 0).val := congrFun ht 0
  have q1 : win0_4.index t (1 : Fin 4) = (i 1).val := congrFun ht 1
  have q2 : win0_4.index t (2 : Fin 4) = (i 2).val / 512 := congrFun ht 2
  have q3 : win0_4.index t (3 : Fin 4) = 0 := congrFun ht 3
  refine ⟨t, flush0_4 t, ?_⟩
  rw [mem_output_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-- The weights array after the run. -/
theorem weights_final (c : Dev nD) :
    (dats m 0 c).arrAt 5 cfg0.N = Cert.Attn.attnQ (V m c main_arg0) (V m c main_arg1) (V m c main_arg3) :=
  (dats m 0 c).arrAt_eq_of_cover 5 (Cert.Attn.attnQ (V m c main_arg0) (V m c main_arg1) (V m c main_arg3))
    (fun t _ => weights_flushed m c t) weights_cover

/-- The output array after the run. -/
theorem output_final (c : Dev nD) :
    (dats m 0 c).arrAt 4 cfg0.N = Cert.Attn.outQ (V m c main_arg0) (V m c main_arg1) (V m c main_arg2) (V m c main_arg3) :=
  (dats m 0 c).arrAt_eq_of_cover 4 (Cert.Attn.outQ (V m c main_arg0) (V m c main_arg1) (V m c main_arg2) (V m c main_arg3))
    (fun t _ => output_flushed m c t) output_cover

/-- The kernel's run, read: every weakly fair execution terminates with the output array at outQ and the
    weights array at attnQ of the four arguments, the arguments unchanged. -/
theorem run : θ_run defs (onTc (τ := τ) (main (F := Ideal))) ⟨m, fun _ => 0, ρ⟩ fun r => ∀ c : Dev nD,
      r.2.mem ((c : Thread nD τ).loc main_v0_0) = Cert.Attn.outQ (m ((c : Thread nD τ).loc main_arg0))
          (m ((c : Thread nD τ).loc main_arg1)) (m ((c : Thread nD τ).loc main_arg2)) (m ((c : Thread nD τ).loc main_arg3))
      ∧ r.2.mem ((c : Thread nD τ).loc main_v0_1) = Cert.Attn.attnQ (m ((c : Thread nD τ).loc main_arg0))
          (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (output_final m c), (h c).2.1.trans (weights_final m c), (h c).2.2⟩)
    (Cert.KernelIdeal.Value.run_blocks m ρ)

end Cert.KernelIdeal.AttnValue

end
-- ==== Proof.RefValue.lean ====
/-
  The reference program's two results, read index by index at the exact instance, are the second
  spelling of masked attention (module Spec): the dot product over the feature axis scaled by
  1 / sqrt 64, the fill value where the mask word is zero, the row maximum from -inf, the exponentials,
  their sum from zero, the quotient, and the weighted sum of the value rows.
-/
import proofs.«406819_j86380382257276_3_alg».proof.Proof.Gen.ReferenceIdeal.Read
import proofs.«406819_j86380382257276_3_alg».proof.Proof.Spec
import proofs.«406819_j86380382257276_3_alg».proof.Proof.Literals

noncomputable section

namespace Cert.ReferenceIdeal.RefValue

open Cert.ReferenceIdeal Cert.ReferenceIdeal.Gen Idealize.ShloMosaic Idealize.ShloMosaic.ValueIdx
open Cert.ReferenceIdeal.Read Cert.Attn

/-! ## The masked scores -/

/-- The score of key `k` for query row `(b, h, q)`: the fill value where the mask word at `(b, 0, q, k)` is zero,
    elsewhere the dot product of the query row with the key row over the 64 features, times 1 / sqrt 64. -/
theorem score_apply (x0 x1 : (⟨S4x16x2048x64, .f32⟩ : BufTy).Contents (Elt Ideal))
    (x3 : (⟨S4x1x2048x2048, .i32⟩ : BufTy).Contents (Elt Ideal)) (b : Fin 4) (h : Fin 16) (q k : Fin 2048) :
    val_main_v7 (F := Ideal) x0 x1 x3 (ix4 b h q k) = scoreS x0 x1 x3 b h q k := by
  rw [val_main_v7_apply, val_main_call0_v0_apply, val_main_v6_apply, val_main_v5_apply, val_main_c_apply,
    val_main_call0_v1_apply, val_main_cst_1_apply, val_main_v4_apply, val_main_v2_apply, val_main_v3_apply,
    val_main_v1_apply, val_main_cst_0_apply, val_main_v0_apply, val_main_cst_apply]
  simp only [Ideal.mulf_def, Ideal.hostDivf_def, Ideal.hostUnary_sqrt_def, Ideal.ofBits_def]
  unfold scoreS maskedOut
  -- the mask is read at (b, 0, q, k): the head axis of the mask has extent one
  have em : idx_main_call0_v0 (ix4 b h q k) = ix4 b (0 : Fin 1) q k :=
    funext fun a => Fin.ext (by match a with | ⟨0, _⟩ => rfl | ⟨1, _⟩ => rfl | ⟨2, _⟩ => rfl | ⟨3, _⟩ => rfl)
  -- the query is read at (b, h, q, d), the key at (b, h, k, d)
  have eq : ∀ d : Fin 64, lidx_main_v2 (ix4 b h q k) d = ix4 b h q d := fun d =>
    funext fun a => Fin.ext (by match a with | ⟨0, _⟩ => rfl | ⟨1, _⟩ => rfl | ⟨2, _⟩ => rfl | ⟨3, _⟩ => rfl)
  have ek : ∀ d : Fin 64, ridx_main_v2 (ix4 b h q k) d = ix4 b h k d := fun d =>
    funext fun a => Fin.ext (by match a with | ⟨0, _⟩ => rfl | ⟨1, _⟩ => rfl | ⟨2, _⟩ => rfl | ⟨3, _⟩ => rfl)
  rw [em]
  simp only [eq, ek]

/-! ## The row maximum -/

/-- The maximum of query row `(b, h, q)`'s scores over the 2048 keys, starting from -inf; the further maximum with
    a broadcast -inf changes nothing. -/
theorem rowMax_apply (x0 x1 : (⟨S4x16x2048x64, .f32⟩ : BufTy).Contents (Elt Ideal))
    (x3 : (⟨S4x1x2048x2048, .i32⟩ : BufTy).Contents (Elt Ideal)) (b : Fin 4) (h : Fin 16) (q : Fin 2048) :
    val_main_v10 (F := Ideal) x0 x1 x3 (ix3 b h q) = rowMax (scoreS x0 x1 x3 b h q) := by
  have hr : S4x16x2048x2048.Reduces [3] S4x16x2048 := by decide
  -- the row's indices: (b, h, q) with the key's position inserted on the last axis
  have el : ∀ k : Fin 2048, hr.lift (ix3 b h q) k = ix4 b h q k := fun k =>
    funext fun a => Fin.ext (by match a with | ⟨0, _⟩ => rfl | ⟨1, _⟩ => rfl | ⟨2, _⟩ => rfl | ⟨3, _⟩ => rfl)
  rw [val_main_v10_apply, val_main_v9_apply, val_main_cst_3_apply]
  unfold val_main_v8
  rw [Host.reduce_eq_fold_single FloatOps.maximumf _ _ reducesTo_S4x16x2048x2048_S4x16x2048_d3 hr h_S_]
  rw [val_main_cst_2_apply]
  simp only [Ideal.maximumf_def, Ideal.ofBits_def, Lit.neg_inf]
  rw [max_eq_right bot_le]
  unfold rowMax
  show Finset.fold max ⊥ (fun k : Fin 2048 => val_main_v7 (F := Ideal) x0 x1 x3 (hr.lift (ix3 b h q) k)) Finset.univ
    = Finset.fold max ⊥ (scoreS x0 x1 x3 b h q) Finset.univ
  refine Finset.fold_congr fun k _ => ?_
  rw [el, score_apply]

/-! ## The exponentials, their sum, and the quotient -/

/-- Each score minus its row's maximum, exponentiated. -/
theorem rowExp_apply (x0 x1 : (⟨S4x16x2048x64, .f32⟩ : BufTy).Contents (Elt Ideal))
    (x3 : (⟨S4x1x2048x2048, .i32⟩ : BufTy).Contents (Elt Ideal)) (b : Fin 4) (h : Fin 16) (q k : Fin 2048) :
    val_main_v14 (F := Ideal) x0 x1 x3 (ix4 b h q k) = rowExp (scoreS x0 x1 x3 b h q) k := by
  -- the row maximum is broadcast back along the key axis: it is read at (b, h, q) whatever the key
  have e : idx_main_v11 (idx_main_v12 (ix4 b h q k)) = ix3 b h q :=
    funext fun a => Fin.ext (by match a with | ⟨0, _⟩ => rfl | ⟨1, _⟩ => rfl | ⟨2, _⟩ => rfl)
  rw [val_main_v14_apply, val_main_v13_apply, val_main_v12_apply, val_main_v11_apply, e, rowMax_apply, score_apply,
    Ideal.hostUnary_exp_def, Ideal.subf_def]
  rfl

/-- The sum of a row's exponentials over the 2048 keys, starting from zero. -/
theorem rowSum_apply (x0 x1 : (⟨S4x16x2048x64, .f32⟩ : BufTy).Contents (Elt Ideal))
    (x3 : (⟨S4x1x2048x2048, .i32⟩ : BufTy).Contents (Elt Ideal)) (b : Fin 4) (h : Fin 16) (q : Fin 2048) :
    val_main_v15 (F := Ideal) x0 x1 x3 (ix3 b h q) = rowSum (scoreS x0 x1 x3 b h q) := by
  have e : ∀ k : Fin 2048, idx_main_v15 (ix3 b h q) k = ix4 b h q k := fun k =>
    funext fun a => Fin.ext (by match a with | ⟨0, _⟩ => rfl | ⟨1, _⟩ => rfl | ⟨2, _⟩ => rfl | ⟨3, _⟩ => rfl)
  rw [val_main_v15_apply, val_main_cst_4_apply, Ideal.ofBits_def, Ideal.ofBits_zero_f32, zero_add]
  unfold rowSum
  refine Finset.sum_congr rfl fun k _ => ?_
  rw [e, rowExp_apply]

/-- The reference's attention weights are the quotient-normalized spelling. -/
theorem ref_attn (x0 x1 : (⟨S4x16x2048x64, .f32⟩ : BufTy).Contents (Elt Ideal))
    (x3 : (⟨S4x1x2048x2048, .i32⟩ : BufTy).Contents (Elt Ideal)) :
    Cert.ReferenceIdeal.Read.val_main_v18 (F := Ideal) x0 x1 x3 = Cert.Attn.attnS x0 x1 x3 := by
  funext i
  obtain ⟨b, h, q, k, rfl⟩ : ∃ b h q k, i = ix4 b h q k := ⟨i 0, i 1, i 2, i 3, eq_ix4 i⟩
  -- the row sum is broadcast back along the key axis, as the maximum was
  have e : idx_main_v16 (idx_main_v17 (ix4 b h q k)) = ix3 b h q :=
    funext fun a => Fin.ext (by match a with | ⟨0, _⟩ => rfl | ⟨1, _⟩ => rfl | ⟨2, _⟩ => rfl)
  rw [val_main_v18_apply, val_main_v17_apply, val_main_v16_apply, e, rowSum_apply, rowExp_apply, Ideal.hostDivf_def]
  rfl

/-- The reference's output is the weighted sum of the value rows under those weights. -/
theorem ref_out (x0 x1 x2 : (⟨S4x16x2048x64, .f32⟩ : BufTy).Contents (Elt Ideal))
    (x3 : (⟨S4x1x2048x2048, .i32⟩ : BufTy).Contents (Elt Ideal)) :
    Cert.ReferenceIdeal.Read.val_main_v19 (F := Ideal) x0 x1 x2 x3 = Cert.Attn.outS x0 x1 x2 x3 := by
  funext o
  rw [val_main_v19_apply, ref_attn]
  unfold outS
  refine Finset.sum_congr rfl fun j _ => ?_
  -- the weights are read at (b, h, q, j), the values at (b, h, j, d)
  have el : lidx_main_v19 o j = ix4 (o 0) (o 1) (o 2) j :=
    funext fun a => Fin.ext (by match a with | ⟨0, _⟩ => rfl | ⟨1, _⟩ => rfl | ⟨2, _⟩ => rfl | ⟨3, _⟩ => rfl)
  have er : ridx_main_v19 o j = ix4 (o 0) (o 1) j (o 3) :=
    funext fun a => Fin.ext (by match a with | ⟨0, _⟩ => rfl | ⟨1, _⟩ => rfl | ⟨2, _⟩ => rfl | ⟨3, _⟩ => rfl)
  rw [el, er]
  rfl

end Cert.ReferenceIdeal.RefValue

end
-- ==== Proof.Bridge.lean ====
/-
  The two spellings of masked attention (module Spec) are one function wherever the queries and the
  keys are finite reals.

  Scores: with real entries, the sum over the feature axis of (q * 1/8) * k is the sum of q * k times 1/8
  (distributivity, which the extended reals only have away from the infinities), and 1 / sqrt 64 = 1/8.
  So the two score rows agree, and every score is a finite real (the fill value is one too).
  Weights: the row maximum of finite scores is finite, so every exponential is a positive real and the
  row sum is not zero; dividing by a nonzero sum is multiplying by its reciprocal.
-/
import proofs.«406819_j86380382257276_3_alg».proof.Proof.Spec
import proofs.«406819_j86380382257276_3_alg».proof.Proof.Literals

noncomputable section

namespace Cert.Attn

open Idealize.ShloMosaic Idealize.ShloMosaic.ValueIdx

/-! ## Sums of reals inside the extended reals -/

/-- The embedding of the reals carries a finite sum to the sum of the embedded terms. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A dot product of real vectors, one of them scaled entry by entry by the real c, is the real
    dot product times c. -/
theorem dot_scale_left (q k : Fin 64 → ℝ) (c : ℝ) :
    ∑ d : Fin 64, ((q d : EReal) * (c : EReal)) * (k d : EReal)
      = (((∑ d : Fin 64, q d * k d) * c : ℝ) : EReal) := by
  simp only [← EReal.coe_mul]
  rw [← coe_sum, Finset.sum_mul]
  congr 1
  exact Finset.sum_congr rfl (fun d _ => mul_right_comm _ _ _)

/-- A dot product of real vectors scaled afterwards by the real c is the same real. -/
theorem dot_scale_after (q k : Fin 64 → ℝ) (c : ℝ) :
    (∑ d : Fin 64, (q d : EReal) * (k d : EReal)) * (c : EReal)
      = (((∑ d : Fin 64, q d * k d) * c : ℝ) : EReal) := by
  simp only [← EReal.coe_mul]
  rw [← coe_sum, ← EReal.coe_mul]

/-! ## The two score rows -/

/-- Scaling after the dot product uses the same factor as scaling the queries: 1 / sqrt 64 = 1/8. -/
theorem scaleS_eq : scaleS = ((1 / 8 : ℝ) : EReal) := Lit.scale_eq.trans Lit.eighth

/-- On finite queries and keys the two score rows are the same row. -/
theorem scoreQ_eq_scoreS (Q K : QS.Idx → EReal) (M : MS.Idx → BitVec 32)
    (hQ : ∀ i, ∃ r : ℝ, Q i = (r : EReal)) (hK : ∀ i, ∃ r : ℝ, K i = (r : EReal))
    (b : Fin 4) (h : Fin 16) (i : Fin 2048) :
    scoreQ Q K M b h i = scoreS Q K M b h i := by
  choose q hq using hQ
  choose k hk using hK
  funext j
  unfold scoreQ scoreS
  congr 1
  rw [scaleS_eq, show scaleQ = ((1 / 8 : ℝ) : EReal) from Lit.eighth]
  simp only [hq, hk]
  rw [dot_scale_left, dot_scale_after]

/-- On finite queries and keys every score is a finite real: the fill value where the key is masked
    out, a real dot product times 1/8 elsewhere. -/
theorem scoreS_real (Q K : QS.Idx → EReal) (M : MS.Idx → BitVec 32)
    (hQ : ∀ i, ∃ r : ℝ, Q i = (r : EReal)) (hK : ∀ i, ∃ r : ℝ, K i = (r : EReal))
    (b : Fin 4) (h : Fin 16) (i : Fin 2048) (j : Fin 2048) :
    ∃ r : ℝ, scoreS Q K M b h i j = (r : EReal) := by
  choose q hq using hQ
  choose k hk using hK
  unfold scoreS
  by_cases hc : maskedOut M b i j = 1#1
  · rw [hc, select_one]
    exact ⟨_, Lit.fill⟩
  · rw [eq_zero_of_ne_one hc, select_zero, scaleS_eq]
    simp only [hq, hk]
    exact ⟨_, dot_scale_after _ _ _⟩

/-! ## One row of finite scores -/

section Row

variable {n : ℕ} (x : Fin n → EReal) (hx : ∀ j, ∃ r : ℝ, x j = (r : EReal))

include hx

/-- The maximum of a row of finite scores, started from -inf, is below +inf. -/
theorem rowMax_lt_top : rowMax x < ⊤ := by
  unfold rowMax
  rw [Finset.fold_max_lt]
  refine ⟨bot_lt_top, fun j _ => ?_⟩
  obtain ⟨r, hr⟩ := hx j
  rw [hr]
  exact EReal.coe_lt_top r

/-- Every exponential of a row of finite scores is positive: the maximum is below +inf, so a finite
    score minus the maximum is a real or +inf, never -inf, and the exponential vanishes only at -inf. -/
theorem rowExp_pos (j : Fin n) : 0 < rowExp x j := by
  have hm := rowMax_lt_top x hx
  obtain ⟨r, hr⟩ := hx j
  unfold rowExp
  rw [hr]
  generalize rowMax x = m at hm ⊢
  induction m using EReal.rec with
  | bot =>
    rw [show ((r : EReal) - ⊥) = ⊤ from rfl, Ideal.exp_top]
    exact EReal.zero_lt_top
  | coe m =>
    rw [← EReal.coe_sub, Ideal.exp_coe]
    exact_mod_cast Real.exp_pos _
  | top => exact absurd hm (lt_irrefl _)

/-- The sum of the exponentials of a nonempty row of finite scores is positive, so it is not zero. -/
theorem rowSum_ne_zero (j : Fin n) : rowSum x ≠ 0 := by
  have h0 : 0 < rowExp x j := rowExp_pos x hx j
  have hle : rowExp x j ≤ rowSum x :=
    Finset.single_le_sum (f := rowExp x) (fun i _ => (rowExp_pos x hx i).le) (Finset.mem_univ j)
  exact (lt_of_lt_of_le h0 hle).ne'

/-- Off a zero row sum, multiplying by the reciprocal of the sum is dividing by the sum. -/
theorem weightMul_eq_weightDiv (j : Fin n) : weightMul x j = weightDiv x j := by
  have hS := rowSum_ne_zero x hx j
  unfold weightMul weightDiv Ideal.div
  rw [if_neg hS, if_neg hS, one_mul]

end Row

/-! ## The two results -/

/-- Attention weights: the two spellings agree on finite queries and keys. -/
theorem attnQ_eq_attnS (Q K : QS.Idx → EReal) (M : MS.Idx → BitVec 32)
    (hQ : ∀ i, ∃ r : ℝ, Q i = (r : EReal)) (hK : ∀ i, ∃ r : ℝ, K i = (r : EReal)) :
    attnQ Q K M = attnS Q K M := by
  funext a
  have hs : scoreQ Q K M (a 0) (a 1) (a 2) = scoreS Q K M (a 0) (a 1) (a 2) :=
    scoreQ_eq_scoreS Q K M hQ hK (a 0) (a 1) (a 2)
  unfold attnQ attnS
  rw [hs]
  exact weightMul_eq_weightDiv _ (scoreS_real Q K M hQ hK (a 0) (a 1) (a 2)) (a 3)

/-- The output: the two spellings agree on finite queries and keys (the values may be anything). -/
theorem outQ_eq_outS (Q K V : QS.Idx → EReal) (M : MS.Idx → BitVec 32)
    (hQ : ∀ i, ∃ r : ℝ, Q i = (r : EReal)) (hK : ∀ i, ∃ r : ℝ, K i = (r : EReal)) :
    outQ Q K V M = outS Q K V M := by
  funext o
  unfold outQ outS
  rw [attnQ_eq_attnS Q K M hQ hK]

end Cert.Attn

end
-- ==== Proof.Finite.lean ====
/-
  The precondition says that the absolute value of every entry of Q, K and V is below +inf. Over the
  extended reals that makes every entry a real number: it is neither +inf nor -inf.
-/
import proofs.«406819_j86380382257276_3_alg».proof.Pre_finite_inputs
import proofs.«406819_j86380382257276_3_alg».proof.Proof.Gen.Pre_finite_inputs
import proofs.«406819_j86380382257276_3_alg».proof.Proof.Literals
import Idealize.ShloMosaic.Lib.ReduceAll
import Idealize.ShloMosaic.Lib.ValueIdx
import Idealize.ShloMosaic.PureOps.Ideal

noncomputable section

namespace Cert.Attn

open Idealize.ShloMosaic Idealize.ShloMosaic.ValueIdx
open Cert.Pre_finite_inputs Cert.Pre_finite_inputs.Facts

/-- The rank-0 shape has exactly one index: there is no axis to give a coordinate on. -/
instance subsingleton_scalar_idx : Subsingleton Cert.Pre_finite_inputs.S_.Idx :=
  ⟨fun _ _ => funext fun d => d.elim0⟩

/-- On the extended reals the absolute value `max x (-x)` of either infinity is `⊤`, so an `x` whose
    absolute value compares strictly below `⊤` is a real number. -/
theorem real_of_abs_lt (x : EReal) (hx : Ideal.cmp .olt (max x (-x)) ⊤ = 1#1) : ∃ r : ℝ, x = (r : EReal) := by
  induction x using EReal.rec with
  | bot =>
    -- `max ⊥ (-⊥) = max ⊥ ⊤ = ⊤`, and `⊤ < ⊤` is false
    exfalso
    simp [Ideal.cmp] at hx
  | coe r => exact ⟨r, rfl⟩
  | top =>
    -- `max ⊤ (-⊤) = ⊤`, and `⊤ < ⊤` is false
    exfalso
    simp [Ideal.cmp] at hx

/-- One conjunct of the precondition: if the conjunction over all entries of the comparison of `|a|` with
    the broadcast `+inf` is true, every entry of `a` is a real number. -/
theorem all_real [Cert.Pre_finite_inputs.Facts] (a : FVec Ideal S4x16x2048x64 .f32)
    (hall : Host.reduce IntOp.andi
        (cmpf .olt (Host.absf a)
          (broadcastInDim S4x16x2048x64 ![] bcast_S_S4x16x2048x64 (constant S_ .f32 0x7F800000#32)))
        (constantI S_ 1 1#1) reducesTo_S4x16x2048x64_S_d0_1_2_3 h_S_ ix0 = 1#1) :
    ∀ i, ∃ r : ℝ, a i = (r : EReal) := by
  intro i
  -- every entry of the compared array is true
  have hi := Host.reduce_andi_all _ _ _ _ _ hall i
  -- at entry `i` that comparison is `max (a i) (-(a i)) < +inf`, the literal being `⊤`
  have hi' : Ideal.cmp .olt (max (a i) (-(a i))) (Ideal.ofBits .f32 0x7F800000#32) = 1#1 := hi
  rw [Lit.pos_inf] at hi'
  exact real_of_abs_lt (a i) hi'

/-- Under the printed precondition every entry of the three float arguments is a real number. -/
theorem real_of_pre [Cert.Pre_finite_inputs.Facts]
    (a0 a1 a2 : FVec Ideal Cert.Pre_finite_inputs.S4x16x2048x64 .f32)
    (a3 : IVec Cert.Pre_finite_inputs.S4x1x2048x2048 32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal)) := by
  -- the predicate's one element: (all Q ∧ all K) ∧ all V
  have h0 := congrFun h ix0
  dsimp only [Cert.Pre_finite_inputs.fn, andi] at h0
  obtain ⟨hqk, hv⟩ := IntOp.andi_eq_one.1 h0
  obtain ⟨hq, hk⟩ := IntOp.andi_eq_one.1 hqk
  exact ⟨all_real a0 hq, all_real a1 hk, all_real a2 hv⟩

end Cert.Attn

end
-- ==== Proof.lean ====
/-
  Masked scaled dot-product attention: the kernel against its reference, over the extended reals.

  The kernel scales each query entry by 1/8, takes each query row's dot products with the keys of its
  head, overwrites the scores whose mask word is zero by the finite fill value, and normalizes each row
  by subtracting its maximum, exponentiating and multiplying by the reciprocal of the sum; it returns
  those weights and their product with the values. The reference scales the finished dot products by
  1 / sqrt 64 and divides by the row sum. After its run the kernel's two result arrays are the functions
  outQ and attnQ of the arguments (module KernelFinal), the reference's are outS and attnS (module
  RefValue), and the two spellings are one function on finite queries and keys (module Bridge), which
  the precondition provides (module Finite): 1 / sqrt 64 is 1/8, a sum of real products distributes over
  the scale, and a row of finite scores has a positive sum of exponentials, so dividing by it is
  multiplying by its reciprocal.

  The three frame claims are the two generated frames and the reference's run with its results dropped;
  the idealization rewrote nothing, so there is nothing to preserve.
-/
import proofs.«406819_j86380382257276_3_alg».proof.Defs
import proofs.«406819_j86380382257276_3_alg».proof.Proof.Gen.Kernel
import proofs.«406819_j86380382257276_3_alg».proof.Proof.Gen.Kernel.Skeleton
import proofs.«406819_j86380382257276_3_alg».proof.Proof.Gen.Kernel.Launch
import proofs.«406819_j86380382257276_3_alg».proof.Proof.Gen.Kernel.Points
import proofs.«406819_j86380382257276_3_alg».proof.Proof.Gen.Kernel.Frame
import proofs.«406819_j86380382257276_3_alg».proof.Proof.Gen.KernelIdeal
import proofs.«406819_j86380382257276_3_alg».proof.Proof.Gen.KernelIdeal.Skeleton
import proofs.«406819_j86380382257276_3_alg».proof.Proof.Gen.KernelIdeal.Launch
import proofs.«406819_j86380382257276_3_alg».proof.Proof.Gen.KernelIdeal.Points
import proofs.«406819_j86380382257276_3_alg».proof.Proof.Gen.KernelIdeal.Frame
import proofs.«406819_j86380382257276_3_alg».proof.Proof.Gen.ReferenceIdeal
import proofs.«406819_j86380382257276_3_alg».proof.Proof.Gen.Pre_finite_inputs
import proofs.«406819_j86380382257276_3_alg».proof.Proof.Gen.KernelIdeal.Value
import proofs.«406819_j86380382257276_3_alg».proof.Proof.Gen.ReferenceIdeal.Run
import proofs.«406819_j86380382257276_3_alg».proof.Proof.Gen.ReferenceIdeal.Read
import proofs.«406819_j86380382257276_3_alg».proof.Proof.KernelFinal
import proofs.«406819_j86380382257276_3_alg».proof.Proof.RefValue
import proofs.«406819_j86380382257276_3_alg».proof.Proof.Bridge
import proofs.«406819_j86380382257276_3_alg».proof.Proof.Finite
import Idealize.ShloMosaic.Adequacy
import Idealize.ShloMosaic.Init

noncomputable section

namespace Cert.Proof

open Idealize.ShloMosaic Idealize.SL.Sem

/-- The word-level kernel runs and leaves its arguments alone. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments alone: its run, the two results dropped. -/
theorem frame_ri : Cert.frame_ReferenceIdeal := fun m ρ _ =>
  (θ_run Cert.ReferenceIdeal.defs _ _).mono (fun _ h c => (h c).2.2)
    (Cert.ReferenceIdeal.Value.run (F := Ideal) m ρ)

/-- The idealization rewrote no operation. -/
theorem preserves : Cert.preserves_Kernel_KernelIdeal := trivial

/-- Both programs end with the same two arrays: the kernel's are outQ and attnQ of its arguments, the
    reference's outS and attnS of arguments that agree, and on the finite queries and keys the
    precondition grants the two spellings coincide. -/
theorem algebraic : Cert.algebraic_KernelIdeal_ReferenceIdeal := by
  intro m ρ m' ρ' hpre hagree
  refine ⟨_, _, Cert.KernelIdeal.AttnValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨hQ, hK, -⟩ := Cert.Attn.real_of_pre _ _ _ _ (hpre c)
    rw [Cert.ReferenceIdeal.Read.val_main_v19_eq, Cert.ReferenceIdeal.RefValue.ref_out,
      (hagree c).1, (hagree c).2.1, (hagree c).2.2.1, (hagree c).2.2.2]
    exact (Cert.Attn.outQ_eq_outS _ _ _ _ hQ hK).symm
  · obtain ⟨hQ, hK, -⟩ := Cert.Attn.real_of_pre _ _ _ _ (hpre c)
    rw [Cert.ReferenceIdeal.Read.val_main_v18_eq, Cert.ReferenceIdeal.RefValue.ref_attn,
      (hagree c).1, (hagree c).2.1, (hagree c).2.2.2]
    exact (Cert.Attn.attnQ_eq_attnS _ _ _ hQ hK).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
